-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.PointValue.lean ====
/-
  What one grid point leaves behind, as values.

  The body keeps a running block `acc` in a scratch buffer. At a point whose K-coordinate is 0 it first stores the zero
  block and then stores `acc + A·B` over it, where `A`, `B` are the point's blocks of the two operands; since the
  accumulator it adds to is read back from the zero block just stored, the scratch ends at `0 + A·B`. At every other
  point the scratch, holding `s`, ends at `s + A·B`. At a point whose K-coordinate is 7 the body also copies the
  scratch, after that update, into the output block: the output block is the same `s + A·B`.

  Each statement below says this for one control case, at arbitrary staging buffers and arbitrary loaded values; the
  arithmetic itself is the generated payload `k0_pay2 A B s` (and `k0_pay1`, the zero block).
-/
import proofs.«174037_j63986422775980_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.PointValue

open Cert.KernelIdeal Cert.KernelIdeal.Gen

variable {F : FTy → Type} [FloatOps F]

/-- The origin of a rank-2 buffer, as the constant-zero offset. -/
theorem origin2 : (![0, 0] : Fin 2 → Nat) = fun _ => 0 := funext fun a => by fin_cases a <;> rfl

/-- K-coordinate 0: the scratch is reset to the zero block and then updated, so it ends at `0 + A·B`. -/
theorem scratch_first (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (A : Vec F S1024x512 .f32) (B : Vec F S512x1024 .f32) :
    sout0_A_0 c i a3 h3 a4 h4 a5 h5 a6 h6 hc0 hc1 A B = k0_pay2 A B k0_pay1 := by
  unfold sout0_A_0
  rw [View.read_writes_eq_canon _ _ _ (scover0_A_0 c i a3 h3 a4 h4 a5 h5 a6 h6 hc0 hc1 A B)]
  unfold kernelRun0_A
  dsimp only
  sl_unfold_words
  rw [View.canon_cons_unit_zero (S := S1024x1024) origin2, View.readCov_unit_zero (S := S1024x1024) _ origin2]
  simp only [View.readAt_eq_ld, h3.read_unread, h4.read_unread, View.ld_unit_zero (S := S1024x512) origin2,
    View.ld_unit_zero (S := S512x1024) origin2]

/-- K-coordinate strictly between 0 and 7: the scratch, holding `s`, ends at `s + A·B`. -/
theorem scratch_middle (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (A : Vec F S1024x512 .f32) (B : Vec F S512x1024 .f32) (s : Vec F S1024x1024 .f32) :
    sout0_B_0 c i a3 h3 a4 h4 a5 h5 a6 h6 hc0 hc1 A B s = k0_pay2 A B s := by
  unfold sout0_B_0
  rw [View.read_writes_eq_canon _ _ _ (scover0_B_0 c i a3 h3 a4 h4 a5 h5 a6 h6 hc0 hc1 A B s)]
  unfold kernelRun0_B
  dsimp only
  sl_unfold_words
  rw [View.canon_unit_zero origin2]
  simp only [View.readAt_eq_ld, h3.read_unread, h4.read_unread, h6.read_unread, View.ld_unit_zero (S := S1024x512) origin2,
    View.ld_unit_zero (S := S512x1024) origin2, View.ld_unit_zero (S := S1024x1024) origin2]

/-- K-coordinate 7: the scratch, holding `s`, ends at `s + A·B` as at the points before it. -/
theorem scratch_last (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (A : Vec F S1024x512 .f32) (B : Vec F S512x1024 .f32) (s : Vec F S1024x1024 .f32) :
    sout0_C_0 c i a3 h3 a4 h4 a5 h5 a6 h6 hc0 hc1 A B s = k0_pay2 A B s := by
  unfold sout0_C_0
  rw [View.read_writes_eq_canon _ _ _ (scover0_C_0 c i a3 h3 a4 h4 a5 h5 a6 h6 hc0 hc1 A B s)]
  unfold kernelRun0_C
  dsimp only
  sl_unfold_words
  rw [View.canon_unit_zero origin2]
  simp only [View.readAt_eq_ld, h3.read_unread, h4.read_unread, h6.read_unread, View.ld_unit_zero (S := S1024x512) origin2,
    View.ld_unit_zero (S := S512x1024) origin2, View.ld_unit_zero (S := S1024x1024) origin2]

/-- K-coordinate 7: the output block is a copy of the scratch after its update, `s + A·B`. -/
theorem block_last (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (A : Vec F S1024x512 .f32) (B : Vec F S512x1024 .f32) (s : Vec F S1024x1024 .f32) :
    out0_C_2 c i a3 h3 a4 h4 a5 h5 a6 h6 hc0 hc1 A B s = k0_pay2 A B s := by
  unfold out0_C_2
  rw [View.read_writes_eq_canon _ _ _ (cover0_C_2 c i a3 h3 a4 h4 a5 h5 a6 h6 hc0 hc1 A B s)]
  unfold kernelRun0_C
  dsimp only
  sl_unfold_words
  rw [View.canon_unit_zero origin2, View.readCov_unit_zero (S := S1024x1024) _ origin2]
  simp only [View.readAt_eq_ld, h3.read_unread, h4.read_unread, h6.read_unread, View.ld_unit_zero (S := S1024x512) origin2,
    View.ld_unit_zero (S := S512x1024) origin2, View.ld_unit_zero (S := S1024x1024) origin2]

end Cert.KernelIdeal.PointValue

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.BlockArith.lean ====
/-
  One grid point's arithmetic, read at an entry, over the extended reals.

  The zero block is 0 at every entry. The update `s ↦ s + A·B` of the running block, with `A` a 1024×512 block
  of the first operand and `B` a 512×1024 block of the second, is at the entry `(p, q)`
      s(p, q) + ∑ kk < 512, A(p, kk) · B(kk, q):
  the narrowing of the blocks to bf16 before the product changes nothing over the extended reals, and the product
  into a zero accumulator is the plain contraction sum.
-/
import proofs.«174037_j63986422775980_1_alg».proof.Proof.Gen.KernelIdeal.Skeleton
import proofs.«174037_j63986422775980_1_alg».proof.Proof.LibPlainDot
import Idealize.ShloMosaic.Lib.Pipeline.Value
import Idealize.ShloMosaic.PureOps.Ideal.Laws

open scoped BigOperators

noncomputable section

namespace Cert.KernelIdeal.BlockArith

open Cert.KernelIdeal Cert.KernelIdeal.Gen Idealize.ShloMosaic Idealize.ShloMosaic.ValueIdx

/-- The kernel's product has the plain dimension numbers of [1024, 512] · [512, 1024] → [1024, 1024]. -/
theorem dot_plain : PlainDot.IsPlain (R := 1024) (K := 512) (N := 1024) dot_S1024x512_S512x1024_S1024x1024_1_0_0_1_n_n :=
  ⟨rfl, rfl, rfl, rfl, rfl, rfl⟩

/-- The block the reset stores is zero everywhere. -/
theorem zero_block_apply (j : S1024x1024.Idx) : k0_pay1 (F := Ideal) j = 0 := by
  unfold k0_pay1
  rw [shapeCast_self]
  exact Ideal.ofBits_zero_f32

/-- The updated running block at the entry `(p, q)`. -/
theorem update_apply (A : Vec Ideal S1024x512 .f32) (B : Vec Ideal S512x1024 .f32) (s : Vec Ideal S1024x1024 .f32)
    (p q : Fin 1024) :
    k0_pay2 (F := Ideal) A B s (ix2 p q) = s (ix2 p q) + ∑ kk : Fin 512, A (ix2 p kk) * B (ix2 kk q) := by
  unfold k0_pay2
  rw [shapeCast_self]
  refine congrArg (s (ix2 p q) + ·) ?_
  exact (Ideal.matmul_constant_zero_apply dot_S1024x512_S512x1024_S1024x1024_1_0_0_1_n_n none
    (truncf .bf16 A bitsLt_bf16_f32) (truncf .bf16 B bitsLt_bf16_f32) (ix2 p q)).trans
    (PlainDot.sum_contr dot_plain A B p q)

/-- The product of a 1024×512 block with a 512×1024 block, entry by entry. -/
def blockProd (A : Vec Ideal S1024x512 .f32) (B : Vec Ideal S512x1024 .f32) : S1024x1024.Idx → EReal :=
  fun j => ∑ kk : Fin 512, A (ix2 ⟨(j 0).val, idx2_lt0 j⟩ kk) * B (ix2 kk ⟨(j 1).val, idx2_lt1 j⟩)

/-- The update adds the product of the point's two blocks to the running block, at every entry. -/
theorem update_eq (A : Vec Ideal S1024x512 .f32) (B : Vec Ideal S512x1024 .f32) (s : Vec Ideal S1024x1024 .f32)
    (j : S1024x1024.Idx) : k0_pay2 (F := Ideal) A B s j = s j + blockProd A B j := by
  obtain ⟨p, q, rfl⟩ : ∃ (p q : Fin 1024), j = ix2 p q := ⟨j 0, j 1, eq_ix2 j⟩
  exact update_apply A B s p q

end Cert.KernelIdeal.BlockArith

end
-- ==== Proof.MatProduct.lean ====
/-
  The product of an 8192×4096 matrix `X` with a 4096×4096 matrix `Q` over the extended reals, entry by entry, and
  the one law the kernel's arrangement needs: the contraction sum over `k < 4096` is the sum, over the eight
  consecutive chunks of 512 indices, of each chunk's own sum. Addition of extended reals is commutative and associative
  (also at the infinities), so the law holds for every input: no finiteness is used.
-/
import Idealize.ShloMosaic.PureOps.Ideal
import Idealize.ShloMosaic.Lib.ValueIdx
import Mathlib.Algebra.BigOperators.Fin

open scoped BigOperators

noncomputable section

namespace Cert.MatProduct

open Idealize.ShloMosaic Idealize.ShloMosaic.ValueIdx

/-- The shapes of the two operands (the result has the first one's shape). -/
abbrev SX : Shape := ⟨2, ![8192, 4096]⟩
abbrev SQ : Shape := ⟨2, ![4096, 4096]⟩

/-- Contraction index `512·s + kk`: the `kk`-th index of chunk `s`. -/
def inChunk (s : Fin 8) (kk : Fin 512) : Fin 4096 := ⟨512 * s.val + kk.val, by omega⟩

theorem inChunk_val (s : Fin 8) (kk : Fin 512) : (inChunk s kk).val = 512 * s.val + kk.val := rfl

/-- Entry `(r, cc)` of `X · Q`. -/
def entry (X : SX.Idx → EReal) (Q : SQ.Idx → EReal) (r : Fin 8192) (cc : Fin 4096) : EReal :=
  ∑ k : Fin 4096, X (ix2 r k) * Q (ix2 k cc)

/-- `X · Q` as an array. -/
def product (X : SX.Idx → EReal) (Q : SQ.Idx → EReal) : SX.Idx → EReal :=
  fun i => entry X Q ⟨(i 0).val, idx2_lt0 i⟩ ⟨(i 1).val, idx2_lt1 i⟩

/-- A sum over 4096 indices, chunk by chunk: eight chunks of 512. Holds in any commutative additive monoid. -/
theorem sum_by_chunks {β : Type*} [AddCommMonoid β] (f : Fin 4096 → β) :
    ∑ k : Fin 4096, f k = ∑ s : Fin 8, ∑ kk : Fin 512, f (inChunk s kk) := by
  rw [← Equiv.sum_comp (finProdFinEquiv : Fin 8 × Fin 512 ≃ Fin 4096) f, Fintype.sum_prod_type]
  refine Finset.sum_congr rfl fun s _ => Finset.sum_congr rfl fun kk _ => congrArg f (Fin.ext ?_)
  show kk.val + 512 * s.val = 512 * s.val + kk.val
  omega

/-- An entry of the product, chunk by chunk. -/
theorem entry_by_chunks (X : SX.Idx → EReal) (Q : SQ.Idx → EReal) (r : Fin 8192) (cc : Fin 4096) :
    entry X Q r cc = ∑ s : Fin 8, ∑ kk : Fin 512, X (ix2 r (inChunk s kk)) * Q (ix2 (inChunk s kk) cc) :=
  sum_by_chunks fun k => X (ix2 r k) * Q (ix2 k cc)

end Cert.MatProduct

end
-- ==== Proof.BlockPlace.lean ====
/-
  Where a grid point's blocks lie in the arrays.

  The grid is 8 × 4 × 8 with the last axis running fastest, so point number `t` has coordinates
  `(t / 32, t / 8 % 4, t % 8)` = (row tile, column tile, chunk). The first operand's block at `t` is rows
  `1024·(t/32) …` and contraction indices `512·(t%8) …` of `X`; the second operand's block is contraction indices
  `512·(t%8) …` and columns `1024·(t/8%4) …` of `Q`; the output block is rows `1024·(t/32) …` and columns
  `1024·(t/8%4) …` of the result.
-/
import proofs.«174037_j63986422775980_1_alg».proof.Proof.Gen.KernelIdeal.Frame
import proofs.«174037_j63986422775980_1_alg».proof.Proof.MatProduct
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.BlockPlace

open Cert.KernelIdeal Cert.KernelIdeal.Gen

variable {F : FTy → Type} [FloatOps F]
variable (m : (ℓ : Loc nD τ sig) → Buf (Elt F) ℓ)

/-- The three printed index maps in closed form, decided over the grid's 256 points. -/
theorem tile_of_point : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val / 32 ∧ win0_2.index t (1 : Fin 2) = t.val / 8 % 4 :=
  (by decide +kernel : ∀ t : Fin grid0.N, _)

/-- The two operands as the region finds them, and a point's block of each, at their literal types. -/
abbrev lhsArr (c : Dev nD) : Vec F S8192x4096 .f32 := V m c main_arg0
abbrev rhsArr (c : Dev nD) : Vec F S4096x4096 .f32 := V m c main_arg1
abbrev lhsBlk (c : Dev nD) (t : Fin cfg0.N) : Vec F S1024x512 .f32 := iblk m c 0 t
abbrev rhsBlk (c : Dev nD) (t : Fin cfg0.N) : Vec F S512x1024 .f32 := iblk m c 1 t

/-- Entry `(p, kk)` of the first operand's block at point `t` is entry `(1024·(t/32) + p, 512·(t%8) + kk)` of `X`. -/
theorem lhsBlk_apply (c : Dev nD) (t : Fin cfg0.N) (p : Fin 1024) (kk : Fin 512) (r : Fin 8192) (k : Fin 4096)
    (hr : r.val = 1024 * (t.val / 32) + p.val) (hk : k.val = 512 * (t.val % 8) + kk.val) :
    lhsBlk m c t (ix2 p kk) = lhsArr m c (ix2 r k) := by
  obtain ⟨e0, e1, -, -, -, -⟩ := tile_of_point t
  show ((cfg0.win 0).blk t).view.read (Elt F) (V m c main_arg0) (ix2 p kk) = V m c main_arg0 (ix2 r k)
  rw [View.read_apply]
  refine congrArg (V m c main_arg0) (funext fun a => Fin.ext ?_)
  match a with
  | ⟨0, _⟩ => show win0_0.index t (0 : Fin 2) * 1024 + 1 * p.val = r.val; rw [e0, hr]; omega
  | ⟨1, _⟩ => show win0_0.index t (1 : Fin 2) * 512 + 1 * kk.val = k.val; rw [e1, hk]; omega

/-- Entry `(kk, q)` of the second operand's block at point `t` is entry `(512·(t%8) + kk, 1024·(t/8%4) + q)` of `Q`. -/
theorem rhsBlk_apply (c : Dev nD) (t : Fin cfg0.N) (kk : Fin 512) (q : Fin 1024) (k : Fin 4096) (cc : Fin 4096)
    (hk : k.val = 512 * (t.val % 8) + kk.val) (hc : cc.val = 1024 * (t.val / 8 % 4) + q.val) :
    rhsBlk m c t (ix2 kk q) = rhsArr m c (ix2 k cc) := by
  obtain ⟨-, -, e2, e3, -, -⟩ := tile_of_point t
  show ((cfg0.win 1).blk t).view.read (Elt F) (V m c main_arg1) (ix2 kk q) = V m c main_arg1 (ix2 k cc)
  rw [View.read_apply]
  refine congrArg (V m c main_arg1) (funext fun a => Fin.ext ?_)
  match a with
  | ⟨0, _⟩ => show win0_1.index t (0 : Fin 2) * 512 + 1 * kk.val = k.val; rw [e2, hk]; omega
  | ⟨1, _⟩ => show win0_1.index t (1 : Fin 2) * 1024 + 1 * q.val = cc.val; rw [e3, hc]; omega

/-- Entry `j` of the output block at point `t` is entry `(1024·(t/32) + j₀, 1024·(t/8%4) + j₁)` of the result. -/
theorem outBlk_emb (t : Fin cfg0.N) (j : S1024x1024.Idx) :
    ((((cfg0.win 2).blk t).view.emb j) 0).val = 1024 * (t.val / 32) + (j 0).val
    ∧ ((((cfg0.win 2).blk t).view.emb j) 1).val = 1024 * (t.val / 8 % 4) + (j 1).val := by
  obtain ⟨-, -, -, -, e4, e5⟩ := tile_of_point t
  constructor
  · show win0_2.index t (0 : Fin 2) * 1024 + 1 * (j 0).val = _; rw [e4]; omega
  · show win0_2.index t (1 : Fin 2) * 1024 + 1 * (j 1).val = _; rw [e5]; omega

/-- An entry of the result lies in point `t`'s output block iff its row and column lie in the block's ranges. -/
theorem mem_outBlk (t : Fin cfg0.N) (i : S8192x4096.Idx) :
    i ∈ ((cfg0.win 2).blk t).view.set ↔
      (1024 * (t.val / 32) ≤ (i 0).val ∧ (i 0).val < 1024 * (t.val / 32) + 1024)
      ∧ (1024 * (t.val / 8 % 4) ≤ (i 1).val ∧ (i 1).val < 1024 * (t.val / 8 % 4) + 1024) := by
  obtain ⟨-, -, -, -, e4, e5⟩ := tile_of_point t
  show i ∈ ((View.whole main_v0).slice (win0_2.rect t)).set ↔ _
  rw [View.set_slice_whole, Rect.mem_set_unit]
  constructor
  · intro h
    have b0 : win0_2.index t (0 : Fin 2) * 1024 ≤ (i 0).val ∧ (i 0).val < win0_2.index t (0 : Fin 2) * 1024 + 1024 := h 0
    have b1 : win0_2.index t (1 : Fin 2) * 1024 ≤ (i 1).val ∧ (i 1).val < win0_2.index t (1 : Fin 2) * 1024 + 1024 := h 1
    rw [e4] at b0; rw [e5] at b1
    omega
  · intro h a
    match a with
    | ⟨0, _⟩ => show win0_2.index t (0 : Fin 2) * 1024 ≤ (i 0).val ∧ (i 0).val < win0_2.index t (0 : Fin 2) * 1024 + 1024; rw [e4]; omega
    | ⟨1, _⟩ => show win0_2.index t (1 : Fin 2) * 1024 ≤ (i 1).val ∧ (i 1).val < win0_2.index t (1 : Fin 2) * 1024 + 1024; rw [e5]; omega

end Cert.KernelIdeal.BlockPlace

end
-- ==== Proof.Running.lean ====
/-
  The running block.

  Between two resets the scratch only ever has block products added to it, so after the point with number `t` it
  holds, at every entry,
      0 + ∑ s ≤ t % 8, (the product of the two operand blocks of point 8·(t/8) + s):
  the reset at the point `8·(t/8)`, whose K-coordinate is 0, leaves `0 +` that point's product, and each of the
  following points of the same row and column tile adds its own. This is the carried scratch's fold, unrolled by the
  library's lemma for a fold whose every step adds a term.
-/
import proofs.«174037_j63986422775980_1_alg».proof.Proof.Gen.KernelIdeal.Value
import proofs.«174037_j63986422775980_1_alg».proof.Proof.PointValue
import proofs.«174037_j63986422775980_1_alg».proof.Proof.BlockArith
import proofs.«174037_j63986422775980_1_alg».proof.Proof.BlockPlace
import Idealize.ShloMosaic.Lib.Pipeline.Value

open scoped BigOperators

noncomputable section

open Idealize.ShloMosaic Idealize.ShloMosaic.TcCoe Idealize.SL.Sem Idealize.ShloMosaic.ValueIdx

namespace Cert.KernelIdeal.Running

open Cert.KernelIdeal Cert.KernelIdeal.Gen

variable (m : (ℓ : Loc nD τ sig) → Buf (Elt Ideal) ℓ)

/-- What point number `n` adds to the running block: the product of its two operand blocks (0 past the grid, where
    nothing is ever read). -/
def addend (c : Dev nD) (n : ℕ) : S1024x1024.Idx → EReal := fun j =>
  if h : n < cfg0.N then
    BlockArith.blockProd (BlockPlace.lhsBlk m c ⟨n, h⟩) (BlockPlace.rhsBlk m c ⟨n, h⟩) j
  else 0

theorem addend_of_lt (c : Dev nD) (n : ℕ) (h : n < cfg0.N) (j : S1024x1024.Idx) :
    addend m c n j = BlockArith.blockProd (BlockPlace.lhsBlk m c ⟨n, h⟩) (BlockPlace.rhsBlk m c ⟨n, h⟩) j := by
  unfold addend; rw [dif_pos h]

/-- The scratch after point `t`: zero plus the products of the points from the last reset up to `t`. -/
theorem scratch_after (c : Dev nD) (t : Fin cfg0.N) (j : S1024x1024.Idx) :
    (outsAt0 m c t.val t.isLt).2 j
      = 0 + ∑ s ∈ Finset.range (t.val % 8 + 1), addend m c (8 * (t.val / 8) + s) j := by
  rw [Value.soutsAt0_0_eq m c t]
  refine Pipeline.accAt_add_apply (ι := S1024x1024.Idx) (β := EReal) _ _ (fun _ => 0) (addend m c)
    (8 * (t.val / 8)) 7 ?_ ?_ (t.val % 8) (by omega) _ j
  · -- the reset point: its K-coordinate is 0
    intro h i
    have h0 : (8 * (t.val / 8)) % 8 = 0 := by omega
    have h1 : ¬(8 * (t.val / 8)) % 8 = 7 := by omega
    show Value.scAt0_0 m c (8 * (t.val / 8)) h _ i = 0 + addend m c (8 * (t.val / 8)) i
    unfold Value.scAt0_0
    rw [dif_pos h0, dif_neg h1]
    refine (congrFun (PointValue.scratch_first (F := Ideal) c _ _ _ _ _ _ _ _ _ _ _
      (BlockPlace.lhsBlk m c ⟨8 * (t.val / 8), h⟩) (BlockPlace.rhsBlk m c ⟨8 * (t.val / 8), h⟩)) i).trans ?_
    refine (BlockArith.update_eq (BlockPlace.lhsBlk m c ⟨8 * (t.val / 8), h⟩) (BlockPlace.rhsBlk m c ⟨8 * (t.val / 8), h⟩)
      (k0_pay1 (F := Ideal)) i).trans ?_
    rw [BlockArith.zero_block_apply, addend_of_lt m c _ h]
  · -- the points after it in the same tile: K-coordinate 1 … 7
    intro n h acc i hb he
    have h0 : ¬n % 8 = 0 := by omega
    show Value.scAt0_0 m c n h acc i = acc i + addend m c n i
    unfold Value.scAt0_0
    rw [dif_neg h0]
    by_cases h1 : n % 8 = 7
    · rw [dif_pos h1]
      refine (congrFun (PointValue.scratch_last (F := Ideal) c _ _ _ _ _ _ _ _ _ _ _
        (BlockPlace.lhsBlk m c ⟨n, h⟩) (BlockPlace.rhsBlk m c ⟨n, h⟩) acc) i).trans ?_
      refine (BlockArith.update_eq (BlockPlace.lhsBlk m c ⟨n, h⟩) (BlockPlace.rhsBlk m c ⟨n, h⟩) acc i).trans ?_
      rw [addend_of_lt m c _ h]
    · rw [dif_neg h1]
      refine (congrFun (PointValue.scratch_middle (F := Ideal) c _ _ _ _ _ _ _ _ _ _ _
        (BlockPlace.lhsBlk m c ⟨n, h⟩) (BlockPlace.rhsBlk m c ⟨n, h⟩) acc) i).trans ?_
      refine (BlockArith.update_eq (BlockPlace.lhsBlk m c ⟨n, h⟩) (BlockPlace.rhsBlk m c ⟨n, h⟩) acc i).trans ?_
      rw [addend_of_lt m c _ h]

end Cert.KernelIdeal.Running

end
-- ==== Proof.KernelProduct.lean ====
/-
  The kernel's result array is the product.

  The output block is written back only at the points whose K-coordinate is 7. There it is a copy of the running
  block, which by then holds 0 plus the eight products of the tile's operand blocks: chunk by chunk, the whole
  contraction sum of the entries of that tile. Each entry `(r, cc)` of the result lies in the block of exactly such a
  point, the one of row tile `r / 1024` and column tile `cc / 1024`; so the blocks written back cover the array and
  the array ends at `X · Q`.
-/
import proofs.«174037_j63986422775980_1_alg».proof.Proof.Gen.KernelIdeal.Value
import proofs.«174037_j63986422775980_1_alg».proof.Proof.Running
import proofs.«174037_j63986422775980_1_alg».proof.Proof.MatProduct
import Idealize.ShloMosaic.Lib.Pipeline.Value

open scoped BigOperators

noncomputable section

open Idealize.ShloMosaic Idealize.ShloMosaic.TcCoe Idealize.SL.Sem Idealize.ShloMosaic.ValueIdx
open Idealize.ShloMosaic.Pipeline (Dat)

namespace Cert.KernelIdeal.KernelProduct

open Cert.KernelIdeal Cert.KernelIdeal.Gen

variable (m : (ℓ : Loc nD τ sig) → Buf (Elt Ideal) ℓ) (ρ : Dev nD → PrngReg)

/-- At a point whose K-coordinate is 7 the output block and the scratch hold the same values. -/
theorem out_eq_scratch (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  exact (PointValue.block_last (F := Ideal) c _ _ _ _ _ _ _ _ _ _ _
      (BlockPlace.lhsBlk m c t) (BlockPlace.rhsBlk m c t) _).trans
    (PointValue.scratch_last (F := Ideal) c _ _ _ _ _ _ _ _ _ _ _
      (BlockPlace.lhsBlk m c t) (BlockPlace.rhsBlk m c t) _).symm

/-- The product of point `n`'s two operand blocks at entry `j` is one chunk of the contraction sum of the entry
    `(r, cc)` of the result that `j` is in the point's output block. -/
theorem chunk_of_point (c : Dev nD) (n : Fin cfg0.N) (j : S1024x1024.Idx) (r : Fin 8192) (cc : Fin 4096) (s : Fin 8)
    (hr : r.val = 1024 * (n.val / 32) + (j 0).val) (hc : cc.val = 1024 * (n.val / 8 % 4) + (j 1).val)
    (hs : n.val % 8 = s.val) :
    BlockArith.blockProd (BlockPlace.lhsBlk m c n) (BlockPlace.rhsBlk m c n) j
      = ∑ kk : Fin 512, BlockPlace.lhsArr m c (ix2 r (MatProduct.inChunk s kk))
          * BlockPlace.rhsArr m c (ix2 (MatProduct.inChunk s kk) cc) := by
  unfold BlockArith.blockProd
  refine Finset.sum_congr rfl fun kk _ => ?_
  rw [BlockPlace.lhsBlk_apply m c n ⟨(j 0).val, idx2_lt0 j⟩ kk r (MatProduct.inChunk s kk) hr
      (by rw [MatProduct.inChunk_val, hs]),
    BlockPlace.rhsBlk_apply m c n kk ⟨(j 1).val, idx2_lt1 j⟩ (MatProduct.inChunk s kk) cc
      (by rw [MatProduct.inChunk_val, hs]) hc]

/-- What a flushing point writes back is its block of `X · Q`. -/
theorem flushed_eq (c : Dev nD) (t : Fin cfg0.N) (hf : (cfg0.win 2).flush t = true) :
    (dats m 0 c).flushed 2 t = ((cfg0.win 2).blk t).view.read (Elt Ideal)
      (MatProduct.product (BlockPlace.lhsArr m c) (BlockPlace.rhsArr m c)) := by
  have h7 : t.val % 8 = 7 := (flush0_2 t).mp hf
  have h8 : t.val % 8 + 1 = 8 := by omega
  have hN : cfg0.N = 256 := N_0
  have htl : t.val < cfg0.N := t.isLt
  rw [Value.flushed2]
  funext j
  obtain ⟨er, ec⟩ := BlockPlace.outBlk_emb t j
  show (outsAt0 m c t.val t.isLt).1 j
    = MatProduct.entry (BlockPlace.lhsArr m c) (BlockPlace.rhsArr m c)
        ⟨((((cfg0.win 2).blk t).view.emb j) 0).val, idx2_lt0 _⟩ ⟨((((cfg0.win 2).blk t).view.emb j) 1).val, idx2_lt1 _⟩
  rw [out_eq_scratch m c t h7, Running.scratch_after m c t j, zero_add, h8, MatProduct.entry_by_chunks, Finset.sum_range]
  refine Finset.sum_congr rfl fun s _ => ?_
  have hs : s.val < 8 := s.isLt
  have hn : 8 * (t.val / 8) + s.val < cfg0.N := by omega
  rw [Running.addend_of_lt m c _ hn]
  exact chunk_of_point m c ⟨8 * (t.val / 8) + s.val, hn⟩ j _ _ s
    (by show _ = 1024 * ((8 * (t.val / 8) + s.val) / 32) + (j 0).val; rw [er]; omega)
    (by show _ = 1024 * ((8 * (t.val / 8) + s.val) / 8 % 4) + (j 1).val; rw [ec]; omega)
    (by show (8 * (t.val / 8) + s.val) % 8 = s.val; omega)

/-- Every entry of the result is in the block some flushing point writes back: the last point of its tile. -/
theorem covered (i : S8192x4096.Idx) :
    ∃ t : Fin cfg0.N, (cfg0.win 2).flush t = true ∧ i ∈ ((cfg0.win 2).blk t).view.set := by
  have hN : cfg0.N = 256 := N_0
  have h0 : (i 0).val < 8192 := idx2_lt0 i
  have h1 : (i 1).val < 4096 := idx2_lt1 i
  refine ⟨⟨32 * ((i 0).val / 1024) + 8 * ((i 1).val / 1024) + 7, by omega⟩, (flush0_2 _).mpr ?_, ?_⟩
  · show (32 * ((i 0).val / 1024) + 8 * ((i 1).val / 1024) + 7) % 8 = 7
    omega
  · rw [BlockPlace.mem_outBlk]
    dsimp only
    omega

/-- The result array after the run is `X · Q` of the argument arrays. -/
theorem final (c : Dev nD) :
    (dats m 0 c).arrAt 2 cfg0.N
      = MatProduct.product (m ((c : Thread nD τ).loc main_arg0)) (m ((c : Thread nD τ).loc main_arg1)) :=
  (dats m 0 c).arrAt_eq_of_cover 2 (MatProduct.product (BlockPlace.lhsArr m c) (BlockPlace.rhsArr m c))
    (fun t hf => flushed_eq m c t hf) covered

/-- Every weakly fair execution of the kernel's program terminates with the result at `X · Q` and the arguments
    unchanged. -/
theorem run : θ_run defs (onTc (τ := τ) (main (F := Ideal))) ⟨m, fun _ => 0, ρ⟩ fun r => ∀ c : Dev nD,
      r.2.mem ((c : Thread nD τ).loc main_v0)
        = MatProduct.product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelProduct

end
-- ==== Proof.RefProduct.lean ====
/-
  The reference computes the product.

  Its one operation is a general dot product contracting `X`'s second axis with `Q`'s first; at the entry `(r, cc)`
  that is ∑ k < 4096, X(r, k) · Q(k, cc), which is the specification's `entry`.
-/
import proofs.«174037_j63986422775980_1_alg».proof.Proof.Gen.ReferenceIdeal.Read
import proofs.«174037_j63986422775980_1_alg».proof.Proof.MatProduct
import Idealize.ShloMosaic.Lib.ValueIdx

open scoped BigOperators

noncomputable section

open Idealize.ShloMosaic Idealize.ShloMosaic.ValueIdx

namespace Cert.ReferenceIdeal.RefProduct

open Cert.ReferenceIdeal Cert.ReferenceIdeal.Gen

/-- The operand indices the read of the dot product uses are `(r, k)` and `(k, cc)`. -/
theorem lhs_index (i : S8192x4096.Idx) (k : Fin 4096) :
    Read.lidx_main_v0 i k = ix2 (⟨(i 0).val, idx2_lt0 i⟩ : Fin 8192) k :=
  funext fun a => by match a with | ⟨0, _⟩ => rfl | ⟨1, _⟩ => rfl

theorem rhs_index (i : S8192x4096.Idx) (k : Fin 4096) :
    Read.ridx_main_v0 i k = ix2 k (⟨(i 1).val, idx2_lt1 i⟩ : Fin 4096) :=
  funext fun a => by match a with | ⟨0, _⟩ => rfl | ⟨1, _⟩ => rfl

/-- The reference's result is `X · Q`. -/
theorem result_eq (X : (⟨S8192x4096, .f32⟩ : BufTy).Contents (Elt Ideal)) (Q : (⟨S4096x4096, .f32⟩ : BufTy).Contents (Elt Ideal)) :
    Read.val_main_v0 (F := Ideal) X Q = MatProduct.product X Q := by
  funext i
  rw [Read.val_main_v0_apply]
  show _ = ∑ k : Fin 4096, X (ix2 (⟨(i 0).val, idx2_lt0 i⟩ : Fin 8192) k) * Q (ix2 k (⟨(i 1).val, idx2_lt1 i⟩ : Fin 4096))
  refine Finset.sum_congr rfl fun k _ => ?_
  rw [lhs_index, rhs_index]

end Cert.ReferenceIdeal.RefProduct

end
-- ==== Proof.lean ====
/-
  A blocked matrix product against a plain one.

  The kernel computes `X · Q` for `X` of shape 8192×4096 and `Q` of shape 4096×4096 tile by tile: for each 1024×1024
  tile of the result it walks the contraction axis in eight chunks of 512, starting a running block at zero and adding,
  at each chunk, the product of a 1024×512 block of `X` (narrowed to bf16) with a 512×1024 block of `Q` (likewise);
  after the eighth chunk it writes the running block out. The reference is the single dot product `X · Q`.

  Over the extended reals narrowing a value changes nothing, so the entry `(r, cc)` of the kernel's result is
      0 + ∑ s < 8, ∑ kk < 512, X(r, 512·s + kk) · Q(512·s + kk, cc),
  and the reference's is ∑ k < 4096, X(r, k) · Q(k, cc). The two are equal because a finite sum may be regrouped into
  consecutive chunks; that uses only commutativity and associativity of addition, which hold at the infinities too, so
  the inputs' finiteness is never used. The ideal pass rewrote nothing in the kernel, so there is nothing to preserve.
-/
import proofs.«174037_j63986422775980_1_alg».proof.Defs
import proofs.«174037_j63986422775980_1_alg».proof.Proof.Gen.Kernel
import proofs.«174037_j63986422775980_1_alg».proof.Proof.Gen.Kernel.Skeleton
import proofs.«174037_j63986422775980_1_alg».proof.Proof.Gen.Kernel.Launch
import proofs.«174037_j63986422775980_1_alg».proof.Proof.Gen.Kernel.Points
import proofs.«174037_j63986422775980_1_alg».proof.Proof.Gen.Kernel.Frame
import proofs.«174037_j63986422775980_1_alg».proof.Proof.Gen.KernelIdeal
import proofs.«174037_j63986422775980_1_alg».proof.Proof.Gen.KernelIdeal.Skeleton
import proofs.«174037_j63986422775980_1_alg».proof.Proof.Gen.KernelIdeal.Launch
import proofs.«174037_j63986422775980_1_alg».proof.Proof.Gen.KernelIdeal.Points
import proofs.«174037_j63986422775980_1_alg».proof.Proof.Gen.KernelIdeal.Frame
import proofs.«174037_j63986422775980_1_alg».proof.Proof.Gen.ReferenceIdeal
import proofs.«174037_j63986422775980_1_alg».proof.Proof.Gen.Pre_finite_inputs
import proofs.«174037_j63986422775980_1_alg».proof.Proof.Gen.KernelIdeal.Value
import proofs.«174037_j63986422775980_1_alg».proof.Proof.Gen.ReferenceIdeal.Run
import proofs.«174037_j63986422775980_1_alg».proof.Proof.Gen.ReferenceIdeal.Read
import proofs.«174037_j63986422775980_1_alg».proof.Proof.KernelProduct
import proofs.«174037_j63986422775980_1_alg».proof.Proof.RefProduct
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on `X` and `Q`, both programs end with `X · Q` in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.MatProduct.product (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelProduct.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefProduct.result_eq _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
